-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S32x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S32x4096 : Shape := ⟨2, ![32, 4096]⟩
abbrev S4096x4096 : Shape := ⟨2, ![4096, 4096]⟩
abbrev S4096 : Shape := ⟨1, ![4096]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S32x4096, .f32⟩
  | .local _ .vmem, ⟨0, _⟩ => ⟨S32x1024, .f32⟩
  | .local _ .vmem, ⟨1, _⟩ => ⟨S32x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x4096.size a
  hwx0_0 : ∀ i : grid0.Coords, EltTy.bits .f32 = 32 ∨ (Rect.block (s := S32x4096) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S4096.size a
  hwx0_6 : ∀ i : grid0.Coords, EltTy.bits .f32 = 32 ∨ (Rect.block (s := S4096) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1024.size a ≤ S32x4096.size a
  hwx0_7 : ∀ i : grid0.Coords, EltTy.bits .f32 = 32 ∨ (Rect.block (s := S32x4096) S32x1024.size (cc0_transform_7 i) (hinb0_7 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S32x4096 : Shape := ⟨2, ![32, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S32x4096, .f32⟩
  | .hbm, ⟨14, _⟩ => ⟨S1x4096, .f32⟩
  | .hbm, ⟨15, _⟩ => ⟨S32x4096, .f32⟩
  | .hbm, ⟨16, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_1_0_0_n_n_wf : DotDims.WF S32x4096 S4096x4096 S32x4096 [1] [1] [0] [0] [] []

variable [Facts₀]

def dot_S32x4096_S4096x4096_S32x4096_1_1_0_0_n_n : DotDims S32x4096 S4096x4096 S32x4096 where
  lhsContracting := [1]
  rhsContracting := [1]
  lhsNonContracting := [0]
  rhsNonContracting := [0]
  lhsBatch := []
  rhsBatch := []
  wf := dot_S32x4096_S4096x4096_S32x4096_1_1_0_0_n_n_wf

class Facts : Prop extends Facts₀ where

variable [Facts]
-- ==== Proof.Spec.lean ====
/-
  The specification. A linear layer whose weight and bias are sampled by the reparameterization
  z = mean + exp(log_sigma) * eps:

      out[b, o] = (∑ k < 4096, x[b, k] * zW[o, k]) + zB[o],
      zW[o, k]  = mean_w[o, k] + exp(sigma_w[o, k]) * eps_w[o, k],
      zB[o]     = mean_b[o]    + exp(sigma_b[o])    * eps_b[o],

  over the extended reals. Also here: the one law the two programs differ by. The contraction over
  k < 4096 is the sum over four consecutive blocks of 1024 of the block's partial contraction; this is
  a regrouping of a finite sum in a commutative monoid and needs no finiteness of the entries.
-/
import Idealize.ShloMosaic.PureOps.Ideal
import Idealize.ShloMosaic.Lib.ValueIdx

noncomputable section

namespace Cert.Spec

open Idealize.ShloMosaic Idealize.ShloMosaic.ValueIdx

/-- The sampled weight at row `o` (an output feature) and column `k` (an input feature). -/
def zW (mw sw ew : FVec Ideal ⟨2, ![4096, 4096]⟩ .f32) (o k : Fin 4096) : EReal :=
  mw (ix2 o k) + Ideal.exp (sw (ix2 o k)) * ew (ix2 o k)

/-- The sampled bias at output feature `o`. -/
def zB (mb sb eb : FVec Ideal ⟨1, ![4096]⟩ .f32) (o : Fin 4096) : EReal :=
  mb (ix1 o) + Ideal.exp (sb (ix1 o)) * eb (ix1 o)

/-- The layer's output, index by index. The argument order is the programs': x, mean_w, sigma_w, mean_b,
    sigma_b, eps_w, eps_b. -/
def layer (x : FVec Ideal ⟨2, ![32, 4096]⟩ .f32) (mw sw : FVec Ideal ⟨2, ![4096, 4096]⟩ .f32)
    (mb sb : FVec Ideal ⟨1, ![4096]⟩ .f32) (ew : FVec Ideal ⟨2, ![4096, 4096]⟩ .f32)
    (eb : FVec Ideal ⟨1, ![4096]⟩ .f32) : FVec Ideal ⟨2, ![32, 4096]⟩ .f32 := fun i =>
  (∑ k : Fin 4096, x (ix2 (i 0) k) * zW mw sw ew (i 1) k) + zB mb sb eb (i 1)

/-- A column index below 4096 is a block number below 4 and an offset below 1024. -/
def blockEquiv : Fin 4 × Fin 1024 ≃ Fin 4096 where
  toFun p := ⟨1024 * p.1.val + p.2.val, by have := p.1.isLt; have := p.2.isLt; omega⟩
  invFun k := (⟨k.val / 1024, by have := k.isLt; omega⟩, ⟨k.val % 1024, Nat.mod_lt _ (by decide)⟩)
  left_inv := fun ⟨s, j⟩ => by
    have hs := s.isLt
    have hj := j.isLt
    refine Prod.ext (Fin.ext ?_) (Fin.ext ?_)
    · show (1024 * s.val + j.val) / 1024 = s.val; omega
    · show (1024 * s.val + j.val) % 1024 = j.val; omega
  right_inv := fun k => Fin.ext (by show 1024 * (k.val / 1024) + k.val % 1024 = k.val; omega)

/-- A sum over 4096 columns is the sum over the four blocks of each block's sum over its 1024 columns. -/
theorem sum_blocks {M : Type*} [AddCommMonoid M] (g : Fin 4096 → M) :
    ∑ k : Fin 4096, g k
      = ∑ s : Fin 4, ∑ j : Fin 1024, g ⟨1024 * s.val + j.val, by have := s.isLt; have := j.isLt; omega⟩ := by
  rw [← Equiv.sum_comp blockEquiv g, Fintype.sum_prod_type]
  rfl

end Cert.Spec

end
-- ==== Proof.Payload.lean ====
/-
  The kernel body's three stored values, read at an index over the extended reals.

  * the reset value of the accumulator is 0 everywhere;
  * the update adds to the accumulator, at (b, q), the partial contraction
    ∑ j < 1024, x[b, j] * (mean[q, j] + exp(sigma[q, j]) * eps[q, j]) of the x block with the sampled
    weight block (the body multiplies by the TRANSPOSE of the sampled block, so the weight block is read
    at (q, j));
  * the epilogue adds the sampled bias at column q to the accumulator.
-/
import proofs.«169037_j53558242181640_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The accumulator's reset value is zero at every index. -/
theorem pay1_apply (i : S32x1024.Idx) : k0_pay1 (F := Ideal) i = 0 := by
  unfold k0_pay1
  rw [shapeCast_self]
  exact Ideal.ofBits_zero_f32

/-! The matrix product's operand indices, axis by axis: the left operand is read at (row of the output, contraction
    position), the right one at (contraction position, column of the output). -/

theorem lhs_axis0 (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl
theorem lhs_axis1 (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q
theorem rhs_axis0 (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q
theorem rhs_axis1 (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl

/-- The product of an x block with a (transposed) weight block into the zero accumulator, at (b, q): the sum over
    the 1024 contraction positions of x at (b, j) times the weight operand at (j, q). -/
theorem matmul_zero_apply (l : FVec Ideal S32x1024 .f32) (r : FVec Ideal S1024x1024 .f32) (b : Fin 32) (q : Fin 1024) :
    matmul (F := Ideal) dot_S32x1024_S1024x1024_S32x1024_1_0_0_1_n_n none l r (constant (F := Ideal) S32x1024 .f32 0x00000000#32) (ix2 b q)
      = ∑ j : Fin 1024, l (ix2 b j) * r (ix2 j q) := by
  simp only [matmul]
  rw [Ideal.matmul_constant_zero_apply, ← Equiv.sum_comp (contrEquiv1 dot_S32x1024_S1024x1024_S32x1024_1_0_0_1_n_n 1024 rfl rfl).symm]
  refine Finset.sum_congr rfl fun k _ => ?_
  have hk := contrEquiv1_symm_val dot_S32x1024_S1024x1024_S32x1024_1_0_0_1_n_n 1024 rfl rfl k
  have el : dot_S32x1024_S1024x1024_S32x1024_1_0_0_1_n_n.lhsIdx (ix2 b q) ((contrEquiv1 dot_S32x1024_S1024x1024_S32x1024_1_0_0_1_n_n 1024 rfl rfl).symm k) = ix2 b k := funext fun a => Fin.ext (by
    match a with
    | ⟨0, _⟩ => exact lhs_axis0 _ _
    | ⟨1, _⟩ => exact (lhs_axis1 _ _).trans hk)
  have er : dot_S32x1024_S1024x1024_S32x1024_1_0_0_1_n_n.rhsIdx (ix2 b q) ((contrEquiv1 dot_S32x1024_S1024x1024_S32x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The accumulator's update at (b, q): what it held plus the block's partial contraction. -/
theorem pay2_apply (v3 v4 v6 : Vec Ideal S1024x1024 .f32) (v9 v10 : Vec Ideal S32x1024 .f32) (b : Fin 32) (q : Fin 1024) :
    k0_pay2 (F := Ideal) v3 v4 v6 v9 v10 (ix2 b q)
      = v9 (ix2 b q) + ∑ j : Fin 1024, v10 (ix2 b j) * (v3 (ix2 q j) + Ideal.exp (v4 (ix2 q j)) * v6 (ix2 q j)) := by
  unfold k0_pay2
  rw [shapeCast_self, addf_apply, matmul_zero_apply]
  refine congrArg (v9 (ix2 b q) + ·) (Finset.sum_congr rfl fun j _ => ?_)
  rw [transpose_ix2_apply]
  rfl

/-- The epilogue at (b, q): the accumulator plus the sampled bias of column q. -/
theorem pay3_apply (v20 v21 v23 : Vec Ideal S1024 .f32) (v26 : Vec Ideal S32x1024 .f32) (b : Fin 32) (q : Fin 1024) :
    k0_pay3 (F := Ideal) v20 v21 v23 v26 (ix2 b q)
      = v26 (ix2 b q) + (v20 (ix1 q) + Ideal.exp (v21 (ix1 q)) * v23 (ix1 q)) := by
  unfold k0_pay3
  rw [addf_apply, broadcastTo_1b_ab_apply, shapeCast_a_1a_apply]
  rfl

end Cert.KernelIdeal.Pay

end
-- ==== Proof.Pieces.lean ====
/-
  What one grid point's body leaves behind, case by case, as values of the blocks it was handed.

  The accumulator (a scratch block carried from point to point) is reset to zero at the first block of
  the contraction and then updated; at every later block it is only updated; at the last block the
  update is followed by the epilogue, which stores accumulator + bias into the output block. Each of
  these is one covering store (or a reset followed by a covering store read back), so what is left is
  the store's value as a function of the loaded blocks. Stated for every float instance.
-/
import proofs.«169037_j53558242181640_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl
theorem off1 : (![0] : Fin 1 → Nat) = fun _ => 0 := funext fun a => by fin_cases a <;> rfl

/-- First block of the contraction: the accumulator is zeroed, read back, and updated with this block's
    partial product. What it held before does not enter. -/
theorem acc_first (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S32x1024 .f32) (harg9 : arg9.IsWhole) (arg10 : Memref sig .tc .vmem S32x1024 .f32) (harg10 : arg10.IsWhole) (hc0 : cond0_0 i) (hc1 : ¬cond0_1 i)
    (x0 : Vec F S32x1024 .f32) (x1 : Vec F S1024x1024 .f32) (x2 : Vec F S1024x1024 .f32) (x3 : Vec F S1024x1024 .f32) (x4 : Vec F S1024 .f32) (x5 : Vec F S1024 .f32) (x6 : Vec F S1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x2 x3 (k0_pay1 (F := F)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S32x1024) off2, View.readCov_unit_zero (S := S32x1024) _ off2]
  simp only [View.readAt_eq_ld, harg2.read_unread, harg3.read_unread, harg4.read_unread, harg5.read_unread, harg6.read_unread, harg7.read_unread, harg8.read_unread, harg9.read_unread, harg10.read_unread, View.ld_unit_zero (S := S32x1024) off2, View.ld_unit_zero (S := S1024x1024) off2]

/-- A middle block: the accumulator, holding `acc`, is updated with this block's partial product. -/
theorem acc_middle (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S32x1024 .f32) (harg9 : arg9.IsWhole) (arg10 : Memref sig .tc .vmem S32x1024 .f32) (harg10 : arg10.IsWhole) (hc0 : ¬cond0_0 i) (hc1 : ¬cond0_1 i)
    (x0 : Vec F S32x1024 .f32) (x1 : Vec F S1024x1024 .f32) (x2 : Vec F S1024x1024 .f32) (x3 : Vec F S1024x1024 .f32) (x4 : Vec F S1024 .f32) (x5 : Vec F S1024 .f32) (x6 : Vec F S1024 .f32) (acc : Vec F S32x1024 .f32) :
    sout0_B_0 c i arg2 harg2 arg3 harg3 arg4 harg4 arg5 harg5 arg6 harg6 arg7 harg7 arg8 harg8 arg9 harg9 arg10 harg10 hc0 hc1 x0 x1 x2 x3 x4 x5 x6 acc = k0_pay2 x1 x2 x3 acc x0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 acc)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, View.ld_unit_zero (S := S32x1024) off2, View.ld_unit_zero (S := S1024x1024) off2]

/-- The last block: the accumulator is updated exactly as at a middle block. -/
theorem acc_last (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S32x1024 .f32) (harg9 : arg9.IsWhole) (arg10 : Memref sig .tc .vmem S32x1024 .f32) (harg10 : arg10.IsWhole) (hc0 : ¬cond0_0 i) (hc1 : cond0_1 i)
    (x0 : Vec F S32x1024 .f32) (x1 : Vec F S1024x1024 .f32) (x2 : Vec F S1024x1024 .f32) (x3 : Vec F S1024x1024 .f32) (x4 : Vec F S1024 .f32) (x5 : Vec F S1024 .f32) (x6 : Vec F S1024 .f32) (acc : Vec F S32x1024 .f32) :
    sout0_C_0 c i arg2 harg2 arg3 harg3 arg4 harg4 arg5 harg5 arg6 harg6 arg7 harg7 arg8 harg8 arg9 harg9 arg10 harg10 hc0 hc1 x0 x1 x2 x3 x4 x5 x6 acc = k0_pay2 x1 x2 x3 acc x0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, View.ld_unit_zero (S := S32x1024) off2, View.ld_unit_zero (S := S1024x1024) off2]

/-- The last block's epilogue: the output block is the updated accumulator plus the bias block's sample. -/
theorem out_last (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S32x1024 .f32) (harg9 : arg9.IsWhole) (arg10 : Memref sig .tc .vmem S32x1024 .f32) (harg10 : arg10.IsWhole) (hc0 : ¬cond0_0 i) (hc1 : cond0_1 i)
    (x0 : Vec F S32x1024 .f32) (x1 : Vec F S1024x1024 .f32) (x2 : Vec F S1024x1024 .f32) (x3 : Vec F S1024x1024 .f32) (x4 : Vec F S1024 .f32) (x5 : Vec F S1024 .f32) (x6 : Vec F S1024 .f32) (acc : Vec F S32x1024 .f32) :
    out0_C_7 c i arg2 harg2 arg3 harg3 arg4 harg4 arg5 harg5 arg6 harg6 arg7 harg7 arg8 harg8 arg9 harg9 arg10 harg10 hc0 hc1 x0 x1 x2 x3 x4 x5 x6 acc = k0_pay3 x4 x5 x6 (k0_pay2 x1 x2 x3 acc x0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, View.readCov_unit_zero (S := S32x1024) _ off2, View.ld_unit_zero (S := S32x1024) off2, View.ld_unit_zero (S := S1024x1024) off2, View.ld_unit_zero (S := S1024) off1]

end Cert.KernelIdeal.Pieces

end
-- ==== Proof.Blocks.lean ====
/-
  The blocks the pipeline hands the body at grid point t, as entries of the whole argument arrays.

  The grid is 4 x 4, the second coordinate moving fastest: point t is output-column block t / 4 and
  contraction block t % 4. The x block holds all 32 rows and columns 1024 (t % 4) + j; a weight block
  holds rows 1024 (t / 4) + p and columns 1024 (t % 4) + j; a bias block holds entries 1024 (t / 4) + q.
-/
import proofs.«169037_j53558242181640_1_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The x block at point t: every row, the columns of contraction block t % 4. -/
theorem x_block (c : Dev nD) (t : Fin cfg0.N) (b : Fin 32) (j : Fin 1024) :
    (iblk m c 0 t : Vec F S32x1024 .f32) (ix2 b j)
      = (V m c main_arg0 : Vec F S32x4096 .f32) (ix2 b ⟨1024 * (t.val % 4) + j.val, by have := j.isLt; omega⟩) := by
  have hi : win0_0.index t 0 = 0 ∧ win0_0.index t 1 = t.val % 4 :=
    (by decide +kernel : ∀ t : Fin grid0.N, win0_0.index t 0 = 0 ∧ win0_0.index t 1 = t.val % 4) t
  unfold iblk
  rw [View.read_apply]
  show V m c main_arg0 _ = V m c main_arg0 _
  congr 1
  funext a
  apply Fin.ext
  match a with
  | ⟨0, _⟩ => show win0_0.index t 0 * 32 + 1 * b.val = b.val; rw [hi.1]; omega
  | ⟨1, _⟩ => show win0_0.index t 1 * 1024 + 1 * j.val = 1024 * (t.val % 4) + j.val; rw [hi.2]; omega

/-- The weight-mean block at point t. -/
theorem mean_w_block (c : Dev nD) (t : Fin cfg0.N) (p : Fin 1024) (j : Fin 1024) :
    (iblk m c 1 t : Vec F S1024x1024 .f32) (ix2 p j)
      = (V m c main_arg1 : Vec F S4096x4096 .f32) (ix2 ⟨1024 * (t.val / 4) + p.val, by have := p.isLt; have : t.val < 16 := lt_of_lt_of_eq t.isLt (show cfg0.N = 16 from N_0); omega⟩
          ⟨1024 * (t.val % 4) + j.val, by have := j.isLt; omega⟩) := by
  have hi : win0_1.index t 0 = t.val / 4 ∧ win0_1.index t 1 = t.val % 4 :=
    (by decide +kernel : ∀ t : Fin grid0.N, win0_1.index t 0 = t.val / 4 ∧ win0_1.index t 1 = t.val % 4) t
  unfold iblk
  rw [View.read_apply]
  show V m c main_arg1 _ = V m c main_arg1 _
  congr 1
  funext a
  apply Fin.ext
  match a with
  | ⟨0, _⟩ => show win0_1.index t 0 * 1024 + 1 * p.val = 1024 * (t.val / 4) + p.val; rw [hi.1]; omega
  | ⟨1, _⟩ => show win0_1.index t 1 * 1024 + 1 * j.val = 1024 * (t.val % 4) + j.val; rw [hi.2]; omega

/-- The weight log-sigma block at point t. -/
theorem sigma_w_block (c : Dev nD) (t : Fin cfg0.N) (p : Fin 1024) (j : Fin 1024) :
    (iblk m c 2 t : Vec F S1024x1024 .f32) (ix2 p j)
      = (V m c main_arg2 : Vec F S4096x4096 .f32) (ix2 ⟨1024 * (t.val / 4) + p.val, by have := p.isLt; have : t.val < 16 := lt_of_lt_of_eq t.isLt (show cfg0.N = 16 from N_0); omega⟩
          ⟨1024 * (t.val % 4) + j.val, by have := j.isLt; omega⟩) := by
  have hi : win0_2.index t 0 = t.val / 4 ∧ win0_2.index t 1 = t.val % 4 :=
    (by decide +kernel : ∀ t : Fin grid0.N, win0_2.index t 0 = t.val / 4 ∧ win0_2.index t 1 = t.val % 4) t
  unfold iblk
  rw [View.read_apply]
  show V m c main_arg2 _ = V m c main_arg2 _
  congr 1
  funext a
  apply Fin.ext
  match a with
  | ⟨0, _⟩ => show win0_2.index t 0 * 1024 + 1 * p.val = 1024 * (t.val / 4) + p.val; rw [hi.1]; omega
  | ⟨1, _⟩ => show win0_2.index t 1 * 1024 + 1 * j.val = 1024 * (t.val % 4) + j.val; rw [hi.2]; omega

/-- The weight noise block at point t. -/
theorem eps_w_block (c : Dev nD) (t : Fin cfg0.N) (p : Fin 1024) (j : Fin 1024) :
    (iblk m c 3 t : Vec F S1024x1024 .f32) (ix2 p j)
      = (V m c main_arg5 : Vec F S4096x4096 .f32) (ix2 ⟨1024 * (t.val / 4) + p.val, by have := p.isLt; have : t.val < 16 := lt_of_lt_of_eq t.isLt (show cfg0.N = 16 from N_0); omega⟩
          ⟨1024 * (t.val % 4) + j.val, by have := j.isLt; omega⟩) := by
  have hi : win0_3.index t 0 = t.val / 4 ∧ win0_3.index t 1 = t.val % 4 :=
    (by decide +kernel : ∀ t : Fin grid0.N, win0_3.index t 0 = t.val / 4 ∧ win0_3.index t 1 = t.val % 4) t
  unfold iblk
  rw [View.read_apply]
  show V m c main_arg5 _ = V m c main_arg5 _
  congr 1
  funext a
  apply Fin.ext
  match a with
  | ⟨0, _⟩ => show win0_3.index t 0 * 1024 + 1 * p.val = 1024 * (t.val / 4) + p.val; rw [hi.1]; omega
  | ⟨1, _⟩ => show win0_3.index t 1 * 1024 + 1 * j.val = 1024 * (t.val % 4) + j.val; rw [hi.2]; omega

/-- The bias-mean block at point t. -/
theorem mean_b_block (c : Dev nD) (t : Fin cfg0.N) (q : Fin 1024) :
    (iblk m c 4 t : Vec F S1024 .f32) (ix1 q)
      = (V m c main_arg3 : Vec F S4096 .f32) (ix1 ⟨1024 * (t.val / 4) + q.val, by have := q.isLt; have : t.val < 16 := lt_of_lt_of_eq t.isLt (show cfg0.N = 16 from N_0); omega⟩) := by
  have hi : win0_4.index t 0 = t.val / 4 :=
    (by decide +kernel : ∀ t : Fin grid0.N, win0_4.index t 0 = t.val / 4) t
  unfold iblk
  rw [View.read_apply]
  show V m c main_arg3 _ = V m c main_arg3 _
  congr 1
  funext a
  apply Fin.ext
  match a with
  | ⟨0, _⟩ => show win0_4.index t 0 * 1024 + 1 * q.val = 1024 * (t.val / 4) + q.val; rw [hi]; omega

/-- The bias log-sigma block at point t. -/
theorem sigma_b_block (c : Dev nD) (t : Fin cfg0.N) (q : Fin 1024) :
    (iblk m c 5 t : Vec F S1024 .f32) (ix1 q)
      = (V m c main_arg4 : Vec F S4096 .f32) (ix1 ⟨1024 * (t.val / 4) + q.val, by have := q.isLt; have : t.val < 16 := lt_of_lt_of_eq t.isLt (show cfg0.N = 16 from N_0); omega⟩) := by
  have hi : win0_5.index t 0 = t.val / 4 :=
    (by decide +kernel : ∀ t : Fin grid0.N, win0_5.index t 0 = t.val / 4) t
  unfold iblk
  rw [View.read_apply]
  show V m c main_arg4 _ = V m c main_arg4 _
  congr 1
  funext a
  apply Fin.ext
  match a with
  | ⟨0, _⟩ => show win0_5.index t 0 * 1024 + 1 * q.val = 1024 * (t.val / 4) + q.val; rw [hi]; omega

/-- The bias noise block at point t. -/
theorem eps_b_block (c : Dev nD) (t : Fin cfg0.N) (q : Fin 1024) :
    (iblk m c 6 t : Vec F S1024 .f32) (ix1 q)
      = (V m c main_arg6 : Vec F S4096 .f32) (ix1 ⟨1024 * (t.val / 4) + q.val, by have := q.isLt; have : t.val < 16 := lt_of_lt_of_eq t.isLt (show cfg0.N = 16 from N_0); omega⟩) := by
  have hi : win0_6.index t 0 = t.val / 4 :=
    (by decide +kernel : ∀ t : Fin grid0.N, win0_6.index t 0 = t.val / 4) t
  unfold iblk
  rw [View.read_apply]
  show V m c main_arg6 _ = V m c main_arg6 _
  congr 1
  funext a
  apply Fin.ext
  match a with
  | ⟨0, _⟩ => show win0_6.index t 0 * 1024 + 1 * q.val = 1024 * (t.val / 4) + q.val; rw [hi]; omega

end Cert.KernelIdeal.Blocks

end
-- ==== Proof.Fold.lean ====
/-
  The kernel's result array is the specification's layer.

  The accumulator after grid point t (output-column block t / 4, contraction block t % 4) holds, at
  (b, q), the sum over the contraction blocks s = 0 .. t % 4 of that block's partial contraction

      part (4 (t / 4) + s) (b, q) = ∑ j < 1024, x[b, 1024 s + j] * zW[1024 (t / 4) + q, 1024 s + j],

  because it is reset to 0 + part at the first block and each later block adds its own part. At the last
  contraction block the output block is the accumulator plus the sampled bias, and that point writes
  columns 1024 (t / 4) .. 1024 (t / 4) + 1023 of the result. Four blocks of 1024 are the 4096 columns
  of the contraction, so what is written is the layer.
-/
import proofs.«169037_j53558242181640_1_alg».proof.Proof.Gen.KernelIdeal.Value
import proofs.«169037_j53558242181640_1_alg».proof.Proof.Spec
import proofs.«169037_j53558242181640_1_alg».proof.Proof.Payload
import proofs.«169037_j53558242181640_1_alg».proof.Proof.Pieces
import proofs.«169037_j53558242181640_1_alg».proof.Proof.Blocks

noncomputable section

namespace Cert.KernelIdeal.Fold

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arguments, as the region finds them -/

abbrev xArr (c : Dev nD) : FVec Ideal S32x4096 .f32 := V m c main_arg0
abbrev meanW (c : Dev nD) : FVec Ideal S4096x4096 .f32 := V m c main_arg1
abbrev sigmaW (c : Dev nD) : FVec Ideal S4096x4096 .f32 := V m c main_arg2
abbrev meanB (c : Dev nD) : FVec Ideal S4096 .f32 := V m c main_arg3
abbrev sigmaB (c : Dev nD) : FVec Ideal S4096 .f32 := V m c main_arg4
abbrev epsW (c : Dev nD) : FVec Ideal S4096x4096 .f32 := V m c main_arg5
abbrev epsB (c : Dev nD) : FVec Ideal S4096 .f32 := V m c main_arg6

/-- The result array's contents: the layer of the arguments. -/
abbrev result (c : Dev nD) : Buf (Elt Ideal) ((c : Thread nD τ).loc main_v0) :=
  Cert.Spec.layer (xArr m c) (meanW m c) (sigmaW m c) (meanB m c) (sigmaB m c) (epsW m c) (epsB m c)

/-! ## One contraction block's partial product -/

/-- Grid point n's addend at row b and local column q: x's row b against the sampled weight's row
    1024 (n / 4) + q, over the columns of contraction block n % 4. (Zero past the grid, where it is never read.) -/
def partAt (c : Dev nD) (n : ℕ) (b : Fin 32) (q : Fin 1024) : EReal :=
  if h : n < 16 then
    ∑ j : Fin 1024, xArr m c (ix2 b ⟨1024 * (n % 4) + j.val, by have := j.isLt; omega⟩)
      * Cert.Spec.zW (meanW m c) (sigmaW m c) (epsW m c) ⟨1024 * (n / 4) + q.val, by have := q.isLt; omega⟩
          ⟨1024 * (n % 4) + j.val, by have := j.isLt; omega⟩
  else 0

/-- The same at a block index. -/
def part (c : Dev nD) (n : ℕ) (y : S32x1024.Idx) : EReal := partAt m c n (y 0) (y 1)

/-- The body's accumulator update at point n, over the blocks the pipeline hands it: what the accumulator held plus
    the point's partial product. -/
theorem update_eq (c : Dev nD) (n : ℕ) (hb : n < cfg0.N) (acc : Vec Ideal S32x1024 .f32) (y : S32x1024.Idx) :
    k0_pay2 (F := Ideal) (iblk m c 1 (⟨n, hb⟩ : Fin cfg0.N)) (iblk m c 2 (⟨n, hb⟩ : Fin cfg0.N)) (iblk m c 3 (⟨n, hb⟩ : Fin cfg0.N)) acc (iblk m c 0 (⟨n, hb⟩ : Fin cfg0.N)) y
      = acc y + part m c n y := by
  have hN : n < 16 := lt_of_lt_of_eq hb (show cfg0.N = 16 from N_0)
  obtain ⟨b, q, rfl⟩ : ∃ (b : Fin 32) (q : Fin 1024), y = ix2 b q := ⟨y 0, y 1, eq_ix2 y⟩
  refine (Pay.pay2_apply (iblk m c 1 (⟨n, hb⟩ : Fin cfg0.N)) (iblk m c 2 (⟨n, hb⟩ : Fin cfg0.N)) (iblk m c 3 (⟨n, hb⟩ : Fin cfg0.N)) acc (iblk m c 0 (⟨n, hb⟩ : Fin cfg0.N)) b q).trans ?_
  show _ = acc (ix2 b q) + partAt m c n b q
  unfold partAt
  rw [dif_pos hN]
  refine congrArg (acc (ix2 b q) + ·) (Finset.sum_congr rfl fun j _ => ?_)
  rw [Blocks.x_block m c (⟨n, hb⟩ : Fin cfg0.N) b j, Blocks.mean_w_block m c (⟨n, hb⟩ : Fin cfg0.N) q j, Blocks.sigma_w_block m c (⟨n, hb⟩ : Fin cfg0.N) q j,
    Blocks.eps_w_block m c (⟨n, hb⟩ : Fin cfg0.N) q j]
  rfl

/-- At a first contraction block the point leaves 0 plus its partial product, whatever the accumulator held. -/
theorem scAt_reset (c : Dev nD) (n : ℕ) (hb : n < cfg0.N) (h0 : n % 4 = 0) (acc : Vec Ideal S32x1024 .f32) (y : S32x1024.Idx) :
    scAt0_0 m c n hb acc y = 0 + part m c n y := by
  have h1 : ¬n % 4 = 3 := by omega
  unfold scAt0_0
  rw [dif_pos h0, dif_neg h1]
  refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))) y).trans ?_
  refine (update_eq m c n hb (k0_pay1 (F := Ideal)) y).trans ?_
  rw [Pay.pay1_apply]

/-- At every other block the point adds its partial product to what the point before left. -/
theorem scAt_step (c : Dev nD) (n : ℕ) (hb : n < cfg0.N) (h0 : ¬n % 4 = 0) (acc : Vec Ideal S32x1024 .f32) (y : S32x1024.Idx) :
    scAt0_0 m c n hb acc y = acc y + part m c n y := by
  unfold scAt0_0
  rw [dif_neg h0]
  by_cases h1 : n % 4 = 3
  · rw [dif_pos h1]
    refine (congrFun (Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc) y).trans ?_
    exact update_eq m c n hb acc y
  · rw [dif_neg h1]
    refine (congrFun (Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc) y).trans ?_
    exact update_eq m c n hb acc y

/-- THE ACCUMULATOR after point t: the partial products of the contraction blocks 0 .. t % 4 of t's column block. -/
theorem acc_after (c : Dev nD) (t : Fin cfg0.N) (y : S32x1024.Idx) :
    (outsAt0 m c t.val t.isLt).2 y = ∑ s ∈ Finset.range (t.val % 4 + 1), part m c (4 * (t.val / 4) + s) y := by
  rw [soutsAt0_0_eq m c t]
  refine (Pipeline.accAt_add_apply (fun n h => scAt0_0 m c n h (VS0_0.read (Elt Ideal) VS0_0.junk)) (scAt0_0 m c)
    (fun _ => 0) (part m c) (4 * (t.val / 4)) 3 ?_ ?_ (t.val % 4) (by omega) _ y).trans (zero_add _)
  · intro h i
    exact scAt_reset m c _ h (by omega) _ i
  · intro n h acc i hlt hle
    exact scAt_step m c n h (by omega) acc i

/-! ## The last contraction block: the output block, and what is written back -/

/-- Two products of an x entry and a sampled weight entry at equal positions are equal. -/
theorem term_congr (f : Fin 4096 → Fin 4096 → EReal) {o1 o2 k1 k2 : ℕ} (ho : o1 = o2) (hk : k1 = k2)
    (h1 : o1 < 4096) (h2 : k1 < 4096) (h3 : o2 < 4096) (h4 : k2 < 4096) : f ⟨o1, h1⟩ ⟨k1, h2⟩ = f ⟨o2, h3⟩ ⟨k2, h4⟩ := by
  subst ho; subst hk; rfl

/-- At a last contraction block the output block is the epilogue of the accumulator that point leaves. -/
theorem out_epilogue (c : Dev nD) (t : Fin cfg0.N) (h0 : ¬t.val % 4 = 0) (h1 : t.val % 4 = 3) :
    (outsAt0 m c t.val t.isLt).1
      = k0_pay3 (F := Ideal) (iblk m c 4 t) (iblk m c 5 t) (iblk m c 6 t) ((outsAt0 m c t.val t.isLt).2) := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans
    (congrArg (k0_pay3 (F := Ideal) (iblk m c 4 t) (iblk m c 5 t) (iblk m c 6 t))
      (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).symm)

/-- THE OUTPUT BLOCK at a last contraction block t, at (b, q): the layer at row b and column 1024 (t / 4) + q.
    The four partial products of the column block are the whole contraction, regrouped. -/
theorem out_at (c : Dev nD) (t : Fin cfg0.N) (h1 : t.val % 4 = 3) (y : S32x1024.Idx) :
    (outsAt0 m c t.val t.isLt).1 y
      = result m c (ix2 (y 0) ⟨1024 * (t.val / 4) + (y 1).val, by
          have := idx2_lt1 y; have : t.val < 16 := lt_of_lt_of_eq t.isLt (show cfg0.N = 16 from N_0); omega⟩) := by
  have hN : t.val < 16 := lt_of_lt_of_eq t.isLt (show cfg0.N = 16 from N_0)
  have h0 : ¬t.val % 4 = 0 := by omega
  have e4 : t.val % 4 + 1 = 4 := by omega
  rw [out_epilogue m c t h0 h1]
  obtain ⟨b, q, rfl⟩ : ∃ (b : Fin 32) (q : Fin 1024), y = ix2 b q := ⟨y 0, y 1, eq_ix2 y⟩
  show k0_pay3 (F := Ideal) (iblk m c 4 t) (iblk m c 5 t) (iblk m c 6 t) ((outsAt0 m c t.val t.isLt).2) (ix2 b q)
    = result m c (ix2 b ⟨1024 * (t.val / 4) + q.val, by have := q.isLt; omega⟩)
  refine (Pay.pay3_apply (iblk m c 4 t) (iblk m c 5 t) (iblk m c 6 t) _ b q).trans ?_
  rw [acc_after m c t (ix2 b q), e4, Blocks.mean_b_block m c t q, Blocks.sigma_b_block m c t q, Blocks.eps_b_block m c t q]
  show _ = Cert.Spec.layer (xArr m c) (meanW m c) (sigmaW m c) (meanB m c) (sigmaB m c) (epsW m c) (epsB m c) _
  unfold Cert.Spec.layer
  refine congrArg₂ (· + ·) ?_ rfl
  rw [Cert.Spec.sum_blocks, Finset.sum_range]
  refine Finset.sum_congr rfl fun s _ => ?_
  have hs := s.isLt
  have hlt : 4 * (t.val / 4) + s.val < 16 := by omega
  show partAt m c (4 * (t.val / 4) + s.val) b q = _
  unfold partAt
  rw [dif_pos hlt]
  refine Finset.sum_congr rfl fun j _ => ?_
  exact term_congr (fun o k => xArr m c (ix2 b k) * Cert.Spec.zW (meanW m c) (sigmaW m c) (epsW m c) o k)
    (by omega) (by omega) _ _ _ _

/-- WHAT A WRITING POINT WRITES BACK is its block of the layer. -/
theorem flushed_eq (c : Dev nD) (t : Fin cfg0.N) (hf : (cfg0.win 7).flush t = true) :
    (dats m 0 c).flushed 7 t = ((cfg0.win 7).blk t).view.read (Elt Ideal) (result m c) := by
  have h1 : t.val % 4 = 3 := (flush0_7 t).mp hf
  have hi : win0_7.index t 0 = 0 ∧ win0_7.index t 1 = t.val / 4 :=
    (by decide +kernel : ∀ t : Fin grid0.N, win0_7.index t 0 = 0 ∧ win0_7.index t 1 = t.val / 4) t
  rw [flushed7]
  funext y
  show (outsAt0 m c t.val t.isLt).1 y = result m c (((cfg0.win 7).blk t).view.emb y)
  refine (out_at m c t h1 y).trans (congrArg (result m c) (funext fun a => Fin.ext ?_))
  match a with
  | ⟨0, _⟩ => show (y 0).val = win0_7.index t 0 * 32 + 1 * (y 0).val; rw [hi.1]; omega
  | ⟨1, _⟩ => show 1024 * (t.val / 4) + (y 1).val = win0_7.index t 1 * 1024 + 1 * (y 1).val; rw [hi.2]; omega

/-- An index of the result is in point t's block iff each coordinate is in the block's range on its axis. -/
theorem mem_block (t : Fin cfg0.N) (i : S32x4096.Idx) :
    i ∈ ((cfg0.win 7).blk t).view.set ↔ ∀ a : Fin 2, win0_7.index t a * S32x1024.size a ≤ (i a).val ∧ (i a).val < win0_7.index t a * S32x1024.size a + S32x1024.size a := by
  show i ∈ ((View.whole main_v0).slice (win0_7.rect t)).set ↔ _
  rw [View.set_slice_whole, Rect.mem_set_unit]
  exact Iff.rfl

/-- Every index of the result is written: column o by the last contraction block of column block o / 1024. -/
theorem cover (i : S32x4096.Idx) : ∃ t : Fin cfg0.N, (cfg0.win 7).flush t = true ∧ i ∈ ((cfg0.win 7).blk t).view.set := by
  have hi0 : (i 0).val < 32 := (i 0).isLt
  have hi1 : (i 1).val < 4096 := (i 1).isLt
  have hN : cfg0.N = 16 := N_0
  obtain ⟨t, htv⟩ : ∃ t : Fin cfg0.N, t.val = 4 * ((i 1).val / 1024) + 3 := ⟨⟨4 * ((i 1).val / 1024) + 3, by rw [hN]; omega⟩, rfl⟩
  have hi : win0_7.index t 0 = 0 ∧ win0_7.index t 1 = t.val / 4 :=
    (by decide +kernel : ∀ t : Fin grid0.N, win0_7.index t 0 = 0 ∧ win0_7.index t 1 = t.val / 4) t
  refine ⟨t, (flush0_7 t).mpr (by omega), ?_⟩
  rw [mem_block]
  intro a
  match a with
  | ⟨0, _⟩ => show win0_7.index t 0 * 32 ≤ (i 0).val ∧ (i 0).val < win0_7.index t 0 * 32 + 32; rw [hi.1]; omega
  | ⟨1, _⟩ => show win0_7.index t 1 * 1024 ≤ (i 1).val ∧ (i 1).val < win0_7.index t 1 * 1024 + 1024; rw [hi.2]; omega

/-- So the result array ends holding the layer. -/
theorem final (c : Dev nD) : (dats m 0 c).arrAt 7 cfg0.N = result m c :=
  (dats m 0 c).arrAt_eq_of_cover 7 (result m c) (flushed_eq m c) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Fold

end
-- ==== Proof.RefIs.lean ====
/-
  The reference computes the specification. Its ten host operations, read one at a time at an index,
  are: the sampled weight, elementwise; the sampled bias, elementwise; the contraction of x's row b
  with the sampled weight's row o over all 4096 columns; the bias broadcast over the rows; their sum.
-/
import proofs.«169037_j53558242181640_1_alg».proof.Proof.Gen.ReferenceIdeal.Read
import proofs.«169037_j53558242181640_1_alg».proof.Proof.Spec

noncomputable section

namespace Cert.ReferenceIdeal.RefIs

open Cert.ReferenceIdeal Cert.ReferenceIdeal.Read Idealize.ShloMosaic Idealize.ShloMosaic.ValueIdx

/-- The reference's result, as a function of its seven arguments, is the layer of the specification. -/
theorem ref_is_layer (x0 : (⟨S32x4096, .f32⟩ : BufTy).Contents (Elt Ideal)) (x1 x2 : (⟨S4096x4096, .f32⟩ : BufTy).Contents (Elt Ideal))
    (x3 x4 : (⟨S4096, .f32⟩ : BufTy).Contents (Elt Ideal)) (x5 : (⟨S4096x4096, .f32⟩ : BufTy).Contents (Elt Ideal))
    (x6 : (⟨S4096, .f32⟩ : BufTy).Contents (Elt Ideal)) :
    val_main_v9 (F := Ideal) x0 x1 x2 x3 x4 x5 x6 = Cert.Spec.layer x0 x1 x2 x3 x4 x5 x6 := by
  funext i
  have el : ∀ k, lidx_main_v6 i k = ix2 (i 0) k := fun k => funext fun a => by
    match a with | ⟨0, _⟩ => rfl | ⟨1, _⟩ => rfl
  have er : ∀ k, ridx_main_v6 i k = ix2 (i 1) k := fun k => funext fun a => by
    match a with | ⟨0, _⟩ => rfl | ⟨1, _⟩ => rfl
  have eb : idx_main_v7 (idx_main_v8 i) = ix1 (i 1) := funext fun a => by
    match a with | ⟨0, _⟩ => rfl
  rw [val_main_v9_apply, val_main_v6_apply, val_main_v8_apply, val_main_v7_apply, val_main_v5_apply, val_main_v4_apply,
    val_main_v3_apply]
  simp only [val_main_v2_apply, val_main_v1_apply, val_main_v0_apply, el, er, eb]
  rfl

end Cert.ReferenceIdeal.RefIs

end
-- ==== Proof.lean ====
/-
  A linear layer with a sampled weight and bias, out = x · zWᵀ + zB with z = mean + exp(log_sigma) · eps,
  computed by a kernel that tiles the 4096 x 4096 weight into 1024 x 1024 blocks on a 4 x 4 grid and
  accumulates each output-column block over the four contraction blocks, against the plain contraction
  over all 4096 columns.

  Over the extended reals the two are one function of the arguments. The sampled weight and bias are the
  same elementwise expressions on both sides. The kernel's accumulator after the last contraction block is
  0 + (sum over the four blocks of the block's partial contraction), and the reference's contraction over
  4096 columns is that same sum regrouped into four blocks of 1024: a regrouping of a finite sum, which
  holds in any commutative monoid, so the precondition (finite inputs) is never opened. The idealization
  rewrote nothing, so the conjunct that relates the kernel to its idealization is trivial.

  The three frames are the generated ones: the two kernels' frame runs, and the reference's run with its
  result dropped.
-/
import proofs.«169037_j53558242181640_1_alg».proof.Defs
import proofs.«169037_j53558242181640_1_alg».proof.Proof.Gen.Kernel
import proofs.«169037_j53558242181640_1_alg».proof.Proof.Gen.Kernel.Skeleton
import proofs.«169037_j53558242181640_1_alg».proof.Proof.Gen.Kernel.Launch
import proofs.«169037_j53558242181640_1_alg».proof.Proof.Gen.Kernel.Points
import proofs.«169037_j53558242181640_1_alg».proof.Proof.Gen.Kernel.Frame
import proofs.«169037_j53558242181640_1_alg».proof.Proof.Gen.KernelIdeal
import proofs.«169037_j53558242181640_1_alg».proof.Proof.Gen.KernelIdeal.Skeleton
import proofs.«169037_j53558242181640_1_alg».proof.Proof.Gen.KernelIdeal.Launch
import proofs.«169037_j53558242181640_1_alg».proof.Proof.Gen.KernelIdeal.Points
import proofs.«169037_j53558242181640_1_alg».proof.Proof.Gen.KernelIdeal.Frame
import proofs.«169037_j53558242181640_1_alg».proof.Proof.Gen.ReferenceIdeal
import proofs.«169037_j53558242181640_1_alg».proof.Proof.Gen.Pre_finite_inputs
import proofs.«169037_j53558242181640_1_alg».proof.Proof.Gen.KernelIdeal.Value
import proofs.«169037_j53558242181640_1_alg».proof.Proof.Gen.ReferenceIdeal.Run
import proofs.«169037_j53558242181640_1_alg».proof.Proof.Gen.ReferenceIdeal.Read
import proofs.«169037_j53558242181640_1_alg».proof.Proof.Fold
import proofs.«169037_j53558242181640_1_alg».proof.Proof.RefIs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer of arguments that agree. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefIs.ref_is_layer]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
